-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000x64 : Shape := ⟨2, ![3200000, 64]⟩
abbrev S3200000 : Shape := ⟨1, ![3200000]⟩
abbrev S192x36 : Shape := ⟨2, ![192, 36]⟩
abbrev S36 : Shape := ⟨1, ![36]⟩
abbrev S36x2 : Shape := ⟨2, ![36, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000x64 : S_.BroadcastsInDim S3200000x64 (![] : Fin 0 → Fin S3200000x64.rank)
  reducesTo_S3200000x64_S_d0_1 : S3200000x64.ReducesTo [0, 1] S_
  bcast_S_S192x36 : S_.BroadcastsInDim S192x36 (![] : Fin 0 → Fin S192x36.rank)
  reducesTo_S192x36_S_d0_1 : S192x36.ReducesTo [0, 1] S_
  bcast_S_S36 : S_.BroadcastsInDim S36 (![] : Fin 0 → Fin S36.rank)
  reducesTo_S36_S_d0 : S36.ReducesTo [0] S_
  bcast_S_S36x2 : S_.BroadcastsInDim S36x2 (![] : Fin 0 → Fin S36x2.rank)
  reducesTo_S36x2_S_d0_1 : S36x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S36x2 .f32) (main_arg7 : FVec F S2 .f32) (main_v13 : IVec S_ 1) (main_v16 : IVec S36 1) : IVec S_ 1 :=
  let main_c_5 : IVec S_ 1 := constantI S_ 1 1#1
  let main_v17 : IVec S_ 1 := (fun x v => Host.reduce IntOp.andi x v reducesTo_S36_S_d0 h_S_) main_v16 main_c_5
  let main_v18 : IVec S_ 1 := andi main_v13 main_v17
  let main_v19 : FVec F S36x2 .f32 := Host.absf main_arg6
  let main_cst_6 : FVec F S_ .f32 := constant S_ .f32 0x7F800000#32
  let main_v20 : FVec F S36x2 .f32 := broadcastInDim S36x2 ![] bcast_S_S36x2 main_cst_6
  let main_v21 : IVec S36x2 1 := cmpf .olt main_v19 main_v20
  let main_c_7 : IVec S_ 1 := constantI S_ 1 1#1
  let main_v22 : IVec S_ 1 := (fun x v => Host.reduce IntOp.andi x v reducesTo_S36x2_S_d0_1 h_S_) main_v21 main_c_7
  let main_v23 : IVec S_ 1 := andi main_v18 main_v22
  let main_v24 : FVec F S2 .f32 := Host.absf main_arg7
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x64 .f32) (main_arg1 : FVec F S3200000x64 .f32) (main_arg2 : IVec S3200000 32) (main_arg3 : IVec S3200000 32) (main_arg4 : FVec F S192x36 .f32) (main_arg5 : FVec F S36 .f32) (main_arg6 : FVec F S36x2 .f32) (main_arg7 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000x64 .f32 := Host.absf main_arg1
  let main_cst_0 : FVec F S_ .f32 := constant S_ .f32 0x7F800000#32
  let main_v5 : FVec F S3200000x64 .f32 := broadcastInDim S3200000x64 ![] bcast_S_S3200000x64 main_cst_0
  let main_v6 : IVec S3200000x64 1 := cmpf .olt main_v4 main_v5
  let main_c_1 : IVec S_ 1 := constantI S_ 1 1#1
  let main_v7 : IVec S_ 1 := (fun x v => Host.reduce IntOp.andi x v reducesTo_S3200000x64_S_d0_1 h_S_) main_v6 main_c_1
  let main_v8 : IVec S_ 1 := andi main_v3 main_v7
  let main_v9 : FVec F S192x36 .f32 := Host.absf main_arg4
  let main_cst_2 : FVec F S_ .f32 := constant S_ .f32 0x7F800000#32
  let main_v10 : FVec F S192x36 .f32 := broadcastInDim S192x36 ![] bcast_S_S192x36 main_cst_2
  let main_v11 : IVec S192x36 1 := cmpf .olt main_v9 main_v10
  let main_c_3 : IVec S_ 1 := constantI S_ 1 1#1
  let main_v12 : IVec S_ 1 := (fun x v => Host.reduce IntOp.andi x v reducesTo_S192x36_S_d0_1 h_S_) main_v11 main_c_3
  let main_v13 : IVec S_ 1 := andi main_v8 main_v12
  let main_v14 : FVec F S36 .f32 := Host.absf main_arg5
  let main_cst_4 : FVec F S_ .f32 := constant S_ .f32 0x7F800000#32
  let main_v15 : FVec F S36 .f32 := broadcastInDim S36 ![] bcast_S_S36 main_cst_4
  let main_v16 : IVec S36 1 := cmpf .olt main_v14 main_v15
  fn_part1 (F := F) main_arg6 main_arg7 main_v13 main_v16
-- ==== Kernel.lean ====
abbrev S100000x64 : Shape := ⟨2, ![100000, 64]⟩
abbrev S3200000x64 : Shape := ⟨2, ![3200000, 64]⟩
abbrev S3200000 : Shape := ⟨1, ![3200000]⟩
abbrev S192x36 : Shape := ⟨2, ![192, 36]⟩
abbrev S36 : Shape := ⟨1, ![36]⟩
abbrev S36x2 : Shape := ⟨2, ![36, 2]⟩
abbrev S2 : Shape := ⟨1, ![2]⟩
abbrev S_ : Shape := ⟨0, ![]⟩
abbrev S3200000x1 : Shape := ⟨2, ![3200000, 1]⟩
abbrev S64x36 : Shape := ⟨2, ![64, 36]⟩
abbrev S100000x2 : Shape := ⟨2, ![100000, 2]⟩
abbrev S5000x64 : Shape := ⟨2, ![5000, 64]⟩
abbrev S5000x2 : Shape := ⟨2, ![5000, 2]⟩
abbrev S5000x36 : Shape := ⟨2, ![5000, 36]⟩
abbrev S1x36 : Shape := ⟨2, ![1, 36]⟩
abbrev S1x2 : Shape := ⟨2, ![1, 2]⟩

abbrev nBuf : Space → Nat
  | .hbm => 20
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S3200000x64, .f32⟩
  | .hbm, ⟨2, _⟩ => ⟨S3200000, .i32⟩
  | .hbm, ⟨3, _⟩ => ⟨S3200000, .i32⟩
  | .hbm, ⟨4, _⟩ => ⟨S192x36, .f32⟩
  | .hbm, ⟨5, _⟩ => ⟨S36, .f32⟩
  | .hbm, ⟨6, _⟩ => ⟨S36x2, .f32⟩
  | .hbm, ⟨7, _⟩ => ⟨S2, .f32⟩
  | .hbm, ⟨8, _⟩ => ⟨S_, .f32⟩
  | .hbm, ⟨9, _⟩ => ⟨S100000x64, .f32⟩
  | .hbm, ⟨10, _⟩ => ⟨S3200000x1, .i32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S3200000x1, .i32⟩
  | .hbm, ⟨15, _⟩ => ⟨S100000x64, .f32⟩
  | .hbm, ⟨16, _⟩ => ⟨S64x36, .f32⟩
  | .hbm, ⟨17, _⟩ => ⟨S64x36, .f32⟩
  | .hbm, ⟨18, _⟩ => ⟨S64x36, .f32⟩
  | .hbm, ⟨19, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x36, .f32⟩
  | .local _ .vmem, ⟨7, _⟩ => ⟨S64x36, .f32⟩
  | .local _ .vmem, ⟨8, _⟩ => ⟨S64x36, .f32⟩
  | .local _ .vmem, ⟨9, _⟩ => ⟨S36, .f32⟩
  | .local _ .vmem, ⟨10, _⟩ => ⟨S36x2, .f32⟩
  | .local _ .vmem, ⟨11, _⟩ => ⟨S2, .f32⟩
  | .local _ .vmem, ⟨12, _⟩ => ⟨S5000x2, .f32⟩
  | .local _ .vmem, ⟨13, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S36x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  slices_S192x36_S64x36_0_0 : S192x36.Slices ![0, 0] S64x36
  slices_S192x36_S64x36_64_0 : S192x36.Slices ![64, 0] S64x36
  slices_S192x36_S64x36_128_0 : S192x36.Slices ![128, 0] S64x36
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x36_S64x36_0_0 : ∀ a, (![0, 0] : Fin 2 → Nat) a + S64x36.size a ≤ S64x36.size a
  h_S64x36 : 0 < S64x36.numel
  shapeCasts_S64x36_S64x36 : S64x36.ShapeCasts S64x36
  inb_S36_S36_0 : ∀ a, (![0] : Fin 1 → Nat) a + S36.size a ≤ S36.size a
  h_S36 : 0 < S36.numel
  shapeCasts_S36_S1x36 : S36.ShapeCasts S1x36
  broadcasts_S1x36_S5000x36 : S1x36.Broadcasts S5000x36
  inb_S36x2_S36x2_0_0 : ∀ a, (![0, 0] : Fin 2 → Nat) a + S36x2.size a ≤ S36x2.size a
  h_S36x2 : 0 < S36x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000x64_S3200000x1_S3200000x64_1_0_0_1_wf : ScatterDims.WF S100000x64 S3200000x1 S3200000x64 [1] [0] [0] 1
  dot_S5000x64_S64x36_S5000x36_1_0_0_1_n_n_wf : DotDims.WF S5000x64 S64x36 S5000x36 [1] [0] [0] [1] [] []
  dot_S5000x36_S36x2_S5000x2_1_0_0_1_n_n_wf : DotDims.WF S5000x36 S36x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x36.size a ≤ S64x36.size a
  hwx0_3 : ∀ i : grid0.Coords, EltTy.bits .f32 = 32 ∨ (Rect.block (s := S64x36) S64x36.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x36.size a ≤ S64x36.size a
  hwx0_4 : ∀ i : grid0.Coords, EltTy.bits .f32 = 32 ∨ (Rect.block (s := S64x36) S64x36.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x36.size a ≤ S64x36.size a
  hwx0_5 : ∀ i : grid0.Coords, EltTy.bits .f32 = 32 ∨ (Rect.block (s := S64x36) S64x36.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S36.size a ≤ S36.size a
  hwx0_6 : ∀ i : grid0.Coords, EltTy.bits .f32 = 32 ∨ (Rect.block (s := S36) S36.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S36x2.size a ≤ S36x2.size a
  hwx0_7 : ∀ i : grid0.Coords, EltTy.bits .f32 = 32 ∨ (Rect.block (s := S36x2) S36x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x2.size a ≤ S100000x2.size a
  hwx0_9 : ∀ i : grid0.Coords, EltTy.bits .f32 = 32 ∨ (Rect.block (s := S100000x2) S5000x2.size (cc0_transform_9 i) (hinb0_9 i)).WholeWords (EltTy.packing .f32)

variable [Facts₀]

def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x36_S5000x36_1_0_0_1_n_n : DotDims S5000x64 S64x36 S5000x36 where
  lhsContracting := [1]
  rhsContracting := [0]
  lhsNonContracting := [0]
  rhsNonContracting := [1]
  lhsBatch := []
  rhsBatch := []
  wf := dot_S5000x64_S64x36_S5000x36_1_0_0_1_n_n_wf
def dot_S5000x36_S36x2_S5000x2_1_0_0_1_n_n : DotDims S5000x36 S36x2 S5000x2 where
  lhsContracting := [1]
  rhsContracting := [0]
  lhsNonContracting := [0]
  rhsNonContracting := [1]
  lhsBatch := []
  rhsBatch := []
  wf := dot_S5000x36_S36x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x36.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x36.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x36.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S36.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S36x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S5000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S3200000x64 : Shape := ⟨2, ![3200000, 64]⟩
abbrev S3200000 : Shape := ⟨1, ![3200000]⟩
abbrev S192x36 : Shape := ⟨2, ![192, 36]⟩
abbrev S36 : Shape := ⟨1, ![36]⟩
abbrev S36x2 : Shape := ⟨2, ![36, 2]⟩
abbrev S2 : Shape := ⟨1, ![2]⟩
abbrev S_ : Shape := ⟨0, ![]⟩
abbrev S3200000x1 : Shape := ⟨2, ![3200000, 1]⟩
abbrev S100000x192 : Shape := ⟨2, ![100000, 192]⟩
abbrev S100000x36 : Shape := ⟨2, ![100000, 36]⟩
abbrev S1x36 : Shape := ⟨2, ![1, 36]⟩
abbrev S100000x2 : Shape := ⟨2, ![100000, 2]⟩
abbrev S1x2 : Shape := ⟨2, ![1, 2]⟩

abbrev nBuf : Space → Nat
  | .hbm => 28
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000x64, .f32⟩
  | .hbm, ⟨2, _⟩ => ⟨S3200000, .i32⟩
  | .hbm, ⟨3, _⟩ => ⟨S3200000, .i32⟩
  | .hbm, ⟨4, _⟩ => ⟨S192x36, .f32⟩
  | .hbm, ⟨5, _⟩ => ⟨S36, .f32⟩
  | .hbm, ⟨6, _⟩ => ⟨S36x2, .f32⟩
  | .hbm, ⟨7, _⟩ => ⟨S2, .f32⟩
  | .hbm, ⟨8, _⟩ => ⟨S_, .f32⟩
  | .hbm, ⟨9, _⟩ => ⟨S100000x64, .f32⟩
  | .hbm, ⟨10, _⟩ => ⟨S3200000x1, .i32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S3200000x1, .i32⟩
  | .hbm, ⟨15, _⟩ => ⟨S100000x64, .f32⟩
  | .hbm, ⟨16, _⟩ => ⟨S100000x192, .f32⟩
  | .hbm, ⟨17, _⟩ => ⟨S100000x36, .f32⟩
  | .hbm, ⟨18, _⟩ => ⟨S1x36, .f32⟩
  | .hbm, ⟨19, _⟩ => ⟨S100000x36, .f32⟩
  | .hbm, ⟨20, _⟩ => ⟨S100000x36, .f32⟩
  | .hbm, ⟨21, _⟩ => ⟨S_, .f32⟩
  | .hbm, ⟨22, _⟩ => ⟨S100000x36, .f32⟩
  | .hbm, ⟨23, _⟩ => ⟨S100000x36, .f32⟩
  | .hbm, ⟨24, _⟩ => ⟨S100000x2, .f32⟩
  | .hbm, ⟨25, _⟩ => ⟨S1x2, .f32⟩
  | .hbm, ⟨26, _⟩ => ⟨S100000x2, .f32⟩
  | .hbm, ⟨27, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  concatenates_S100000x64_S100000x64_S100000x64_S100000x192_d1 : Shape.Concatenates [S100000x64, S100000x64, S100000x64] S100000x192 1
  bcast_S36_S1x36_1 : S36.BroadcastsInDim S1x36 (![1] : Fin 1 → Fin S1x36.rank)
  bcast_S1x36_S100000x36_0_1 : S1x36.BroadcastsInDim S100000x36 (![0, 1] : Fin 2 → Fin S100000x36.rank)
  bcast_S_S100000x36 : S_.BroadcastsInDim S100000x36 (![] : Fin 0 → Fin S100000x36.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000x64_S3200000x1_S3200000x64_1_0_0_1_wf : ScatterDims.WF S100000x64 S3200000x1 S3200000x64 [1] [0] [0] 1
  dot_S100000x192_S192x36_S100000x36_1_0_0_1_n_n_wf : DotDims.WF S100000x192 S192x36 S100000x36 [1] [0] [0] [1] [] []
  dot_S100000x36_S36x2_S100000x2_1_0_0_1_n_n_wf : DotDims.WF S100000x36 S36x2 S100000x2 [1] [0] [0] [1] [] []

variable [Facts₀]

def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x192_S192x36_S100000x36_1_0_0_1_n_n : DotDims S100000x192 S192x36 S100000x36 where
  lhsContracting := [1]
  rhsContracting := [0]
  lhsNonContracting := [0]
  rhsNonContracting := [1]
  lhsBatch := []
  rhsBatch := []
  wf := dot_S100000x192_S192x36_S100000x36_1_0_0_1_n_n_wf
def dot_S100000x36_S36x2_S100000x2_1_0_0_1_n_n : DotDims S100000x36 S36x2 S100000x2 where
  lhsContracting := [1]
  rhsContracting := [0]
  lhsNonContracting := [0]
  rhsNonContracting := [1]
  lhsBatch := []
  rhsBatch := []
  wf := dot_S100000x36_S36x2_S100000x2_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.NodeSpec.lean ====
/-
  The node update of a graph network, as ONE function of its arrays.

  For node p and output feature q, with x the node features, s and r the edge features summed over each node's
  outgoing and incoming edges, and the 192-row first weight matrix read as three stacked 64-row blocks A, B, C:

    out (p, q) = Σ_{h < 36} max( Σ_{k < 64} x(p,k)·A(k,h) + Σ_{k < 64} s(p,k)·B(k,h) + Σ_{k < 64} r(p,k)·C(k,h) + b₁(h), 0 ) · W₂(h,q) + b₂(q).

  The same value is also spelt with the three feature groups joined along the feature axis; the inner term is then ONE sum
  over 192 features against the whole first weight matrix. The two spellings agree because a finite sum over
  192 = 64 + 64 + 64 indices splits by index range. That uses only that addition of extended reals is commutative and
  associative (they form a commutative additive monoid), so nothing here asks the inputs to be finite.
-/
import Idealize.ShloMosaic.PureOps.Ideal.Laws
import Idealize.ShloMosaic.Lib.ValueIdx

noncomputable section

open scoped BigOperators

namespace Cert.NodeMlp

open Idealize.ShloMosaic Idealize.ShloMosaic.ValueIdx

/-! ## Rows of the stacked weight matrix -/

/-- Row k of the first 64-row block is row k of the stack. -/
abbrev lo (k : Fin 64) : Fin 192 := ⟨k.val, by have := k.isLt; omega⟩
/-- Row k of the second block is row 64 + k of the stack. -/
abbrev mid (k : Fin 64) : Fin 192 := ⟨64 + k.val, by have := k.isLt; omega⟩
/-- Row k of the third block is row 128 + k of the stack. -/
abbrev hi (k : Fin 64) : Fin 192 := ⟨128 + k.val, by have := k.isLt; omega⟩

/-- A sum over 192 indices is the sum over the first 64, plus the sum over the next 64, plus the sum over the last 64. -/
theorem sum_split3 {M : Type} [AddCommMonoid M] (f : Fin 192 → M) :
    ∑ κ : Fin 192, f κ = ((∑ k : Fin 64, f (lo k)) + ∑ k : Fin 64, f (mid k)) + ∑ k : Fin 64, f (hi k) := by
  have e1 : ∑ κ : Fin (128 + 64), f κ
      = ∑ i : Fin 128, f (Fin.castAdd 64 i) + ∑ k : Fin 64, f (Fin.natAdd 128 k) := Fin.sum_univ_add (a := 128) (b := 64) f
  have e2 : ∑ i : Fin (64 + 64), f (Fin.castAdd 64 i)
      = ∑ k : Fin 64, f (Fin.castAdd 64 (Fin.castAdd 64 k)) + ∑ k : Fin 64, f (Fin.castAdd 64 (Fin.natAdd 64 k)) :=
    Fin.sum_univ_add (a := 64) (b := 64) fun i => f (Fin.castAdd 64 i)
  exact e1.trans (congrArg (· + ∑ k : Fin 64, f (Fin.natAdd 128 k)) e2)

/-! ## The specification -/

/-- Hidden unit h of node p: the three 64-term products summed, the bias added, the rectifier applied. -/
def hidden {N : Nat} (x s r : FVec Ideal ⟨2, ![N, 64]⟩ .f32) (A B C : FVec Ideal ⟨2, ![64, 36]⟩ .f32)
    (b1 : FVec Ideal ⟨1, ![36]⟩ .f32) (p : Fin N) (h : Fin 36) : EReal :=
  max ((((∑ k : Fin 64, x (ix2 p k) * A (ix2 k h)) + ∑ k : Fin 64, s (ix2 p k) * B (ix2 k h))
      + ∑ k : Fin 64, r (ix2 p k) * C (ix2 k h)) + b1 (ix1 h)) (Ideal.ofBits .f32 0x00000000#32)

/-- The updated nodes: the hidden units against the second weight matrix, the second bias added. -/
def node {N : Nat} (x s r : FVec Ideal ⟨2, ![N, 64]⟩ .f32) (A B C : FVec Ideal ⟨2, ![64, 36]⟩ .f32)
    (b1 : FVec Ideal ⟨1, ![36]⟩ .f32) (W2 : FVec Ideal ⟨2, ![36, 2]⟩ .f32) (b2 : FVec Ideal ⟨1, ![2]⟩ .f32) :
    FVec Ideal ⟨2, ![N, 2]⟩ .f32 :=
  fun j => (∑ h : Fin 36, hidden x s r A B C b1 (j 0) h * W2 (ix2 h (j 1))) + b2 (ix1 (j 1))

theorem node_apply {N : Nat} (x s r : FVec Ideal ⟨2, ![N, 64]⟩ .f32) (A B C : FVec Ideal ⟨2, ![64, 36]⟩ .f32)
    (b1 : FVec Ideal ⟨1, ![36]⟩ .f32) (W2 : FVec Ideal ⟨2, ![36, 2]⟩ .f32) (b2 : FVec Ideal ⟨1, ![2]⟩ .f32)
    (p : Fin N) (q : Fin 2) :
    node x s r A B C b1 W2 b2 (ix2 p q) = (∑ h : Fin 36, hidden x s r A B C b1 p h * W2 (ix2 h q)) + b2 (ix1 q) := rfl

/-- A node's update reads only that node's row of each feature array: two triples of arrays (of any numbers of rows) that
    agree on row p of the one and row p' of the other give the same update there. -/
theorem node_congr_row {N N' : Nat} (x s r : FVec Ideal ⟨2, ![N, 64]⟩ .f32) (x' s' r' : FVec Ideal ⟨2, ![N', 64]⟩ .f32)
    (A B C : FVec Ideal ⟨2, ![64, 36]⟩ .f32) (b1 : FVec Ideal ⟨1, ![36]⟩ .f32) (W2 : FVec Ideal ⟨2, ![36, 2]⟩ .f32)
    (b2 : FVec Ideal ⟨1, ![2]⟩ .f32) (p : Fin N) (p' : Fin N') (q : Fin 2)
    (hx : ∀ k : Fin 64, x (ix2 p k) = x' (ix2 p' k)) (hs : ∀ k : Fin 64, s (ix2 p k) = s' (ix2 p' k))
    (hr : ∀ k : Fin 64, r (ix2 p k) = r' (ix2 p' k)) :
    node x s r A B C b1 W2 b2 (ix2 p q) = node x' s' r' A B C b1 W2 b2 (ix2 p' q) := by
  rw [node_apply, node_apply]
  simp only [hidden, hx, hs, hr]

/-- THE LAW THAT JOINS THE TWO SPELLINGS. If `cat` holds row p of x, s, r side by side (features 0–63, 64–127, 128–191) and
    A, B, C are the three 64-row blocks of the stacked matrix W₁, then the hidden unit is the rectifier of ONE 192-term
    product plus the bias: the 192-term sum splits by index range into the three 64-term sums. -/
theorem hidden_joined {N : Nat} (x s r : FVec Ideal ⟨2, ![N, 64]⟩ .f32) (A B C : FVec Ideal ⟨2, ![64, 36]⟩ .f32)
    (b1 : FVec Ideal ⟨1, ![36]⟩ .f32) (W1 : FVec Ideal ⟨2, ![192, 36]⟩ .f32) (cat : FVec Ideal ⟨2, ![N, 192]⟩ .f32)
    (p : Fin N) (h : Fin 36)
    (hA : ∀ k : Fin 64, A (ix2 k h) = W1 (ix2 (lo k) h)) (hB : ∀ k : Fin 64, B (ix2 k h) = W1 (ix2 (mid k) h))
    (hC : ∀ k : Fin 64, C (ix2 k h) = W1 (ix2 (hi k) h))
    (hx : ∀ k : Fin 64, cat (ix2 p (lo k)) = x (ix2 p k)) (hs : ∀ k : Fin 64, cat (ix2 p (mid k)) = s (ix2 p k))
    (hr : ∀ k : Fin 64, cat (ix2 p (hi k)) = r (ix2 p k)) :
    hidden x s r A B C b1 p h
      = max ((∑ κ : Fin 192, cat (ix2 p κ) * W1 (ix2 κ h)) + b1 (ix1 h)) (Ideal.ofBits .f32 0x00000000#32) := by
  unfold hidden
  rw [sum_split3 fun κ : Fin 192 => cat (ix2 p κ) * W1 (ix2 κ h)]
  simp only [hA, hB, hC, hx, hs, hr]

end Cert.NodeMlp

end
-- ==== Proof.KernelPayload.lean ====
/-
  What one run of the kernel body leaves in its output block, read at an index.

  The body loads a 5000-row block of each feature array and the (whole) weight and bias arrays, and stores one value:
  for row p of the block and output feature q,

    Σ_{h < 36} max( Σ_k x(p,k)·A(k,h) + Σ_k s(p,k)·B(k,h) + Σ_k r(p,k)·C(k,h) + b₁(h), 0 ) · W₂(h,q) + b₂(q).

  At the extended reals the narrowing of a float format is the identity, a matrix product into the zero accumulator is
  the plain sum of products over the contracted coordinate, a shape cast to the same shape is the identity, and a bias
  vector cast to one row and broadcast down the rows is read at its column. So the stored value is the specification's
  `node` of the loaded blocks, index by index.
-/
import proofs.«131968_j45071386804514_1_alg».proof.Proof.Gen.KernelIdeal.Skeleton
import proofs.«131968_j45071386804514_1_alg».proof.Proof.LibPlainDot
import proofs.«131968_j45071386804514_1_alg».proof.Proof.NodeSpec
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.NodeMlp

/-- A vector of n entries cast to one row and broadcast down m rows, read at (p, h), is its entry h. -/
theorem bias_row {m n : Nat} (v : FVec Ideal ⟨1, ![n]⟩ .f32) (h1 : (⟨1, ![n]⟩ : Shape).ShapeCasts ⟨2, ![1, n]⟩)
    (hb : (⟨2, ![1, n]⟩ : Shape).Broadcasts ⟨2, ![m, n]⟩) (p : Fin m) (h : Fin n) :
    broadcastTo ⟨2, ![m, n]⟩ (shapeCast ⟨2, ![1, n]⟩ v h1) hb (ix2 p h) = v (ix1 h) := by
  have e1 := broadcastTo_apply (shapeCast ⟨2, ![1, n]⟩ v h1) hb (ix2 p h) (ix2 (0 : Fin 1) h) (by
    intro a
    match a with
    | ⟨0, _⟩ => rfl
    | ⟨1, _⟩ =>
      show h.val = if n = 1 then 0 else h.val
      split
      · have := h.isLt; omega
      · rfl)
  have e2 := shapeCast_apply v h1 (ix2 (0 : Fin 1) h) (ix1 h) (by
    rw [Shape.rowMajor_val_two, Shape.rowMajor_val_one]; show h.val = 0 * n + h.val; omega)
  exact e1.trans e2

/-- Both matrix products of the body contract the left operand's columns with the right operand's rows. -/
theorem plain1 : PlainDot.IsPlain dot_S5000x64_S64x36_S5000x36_1_0_0_1_n_n := ⟨rfl, rfl, rfl, rfl, rfl, rfl⟩
theorem plain2 : PlainDot.IsPlain dot_S5000x36_S36x2_S5000x2_1_0_0_1_n_n := ⟨rfl, rfl, rfl, rfl, rfl, rfl⟩

/-- One of the three first-layer products at (p, h): the feature block's row p against column h of the weight block
    (the narrowing of both operands and the weight's same-shape cast read through). -/
theorem first_layer_apply (x : FVec Ideal S5000x64 .f32) (a : FVec Ideal S64x36 .f32) (p : Fin 5000) (h : Fin 36) :
    matmul dot_S5000x64_S64x36_S5000x36_1_0_0_1_n_n none (truncf .bf16 x bitsLt_bf16_f32)
        (truncf .bf16 (shapeCast S64x36 a shapeCasts_S64x36_S64x36) bitsLt_bf16_f32) (constant S5000x36 .f32 0x00000000#32) (ix2 p h)
      = ∑ k : Fin 64, x (ix2 p k) * a (ix2 k h) := by
  rw [shapeCast_self]
  exact PlainDot.matmul_zero_plain dot_S5000x64_S64x36_S5000x36_1_0_0_1_n_n plain1 none _ _ p h

/-- THE BODY'S STORED VALUE at (p, q) is the specification's node update of the loaded blocks. -/
theorem pay_apply (x0 x2 x5 : FVec Ideal S5000x64 .f32) (a b c : FVec Ideal S64x36 .f32) (b1 : FVec Ideal S36 .f32)
    (w2 : FVec Ideal S36x2 .f32) (b2 : FVec Ideal S2 .f32) (p : Fin 5000) (q : Fin 2) :
    k0_pay1 (F := Ideal) x0 x2 x5 a b c b1 w2 b2 (ix2 p q) = node x0 x2 x5 a b c b1 w2 b2 (ix2 p q) := by
  rw [node_apply]
  unfold k0_pay1
  rw [shapeCast_self x2, shapeCast_self x5]
  refine (addf_apply _ _ _).trans ?_
  refine congrArg₂ (· + ·) ?_ (bias_row b2 shapeCasts_S2_S1x2 broadcasts_S1x2_S5000x2 p q)
  refine (PlainDot.matmul_zero_plain dot_S5000x36_S36x2_S5000x2_1_0_0_1_n_n plain2 none _ _ p q).trans ?_
  refine Finset.sum_congr rfl fun h _ => ?_
  refine congrArg₂ (· * ·) ?_ rfl
  unfold Cert.NodeMlp.hidden
  refine (maximumf_apply _ _ _).trans ?_
  refine congrArg₂ max ?_ rfl
  refine (addf_apply _ _ _).trans ?_
  refine congrArg₂ (· + ·) ?_ (bias_row b1 shapeCasts_S36_S1x36 broadcasts_S1x36_S5000x36 p h)
  refine (addf_apply _ _ _).trans ?_
  refine congrArg₂ (· + ·) ?_ (first_layer_apply x5 c p h)
  refine (addf_apply _ _ _).trans ?_
  exact congrArg₂ (· + ·) (first_layer_apply x0 a p h) (first_layer_apply x2 b p h)

end Cert.KernelIdeal.Hand

end
-- ==== Proof.KernelBlocks.lean ====
/-
  Where each window's block sits in its array.

  Grid point t of the 20 stages rows 5000·t … 5000·t + 4999 (all 64 columns) of each of the three feature arrays: an
  element (y₀, y₁) of such a block is the array's element (5000·t + y₀, y₁). The weight and bias windows have ONE block,
  the whole array, at every point. (A block's coordinate in its array is always block index × block size + the coordinate
  inside the block; the block indices are decided over the grid.)
-/
import proofs.«131968_j45071386804514_1_alg».proof.Proof.Gen.KernelIdeal.Frame
import proofs.«131968_j45071386804514_1_alg».proof.Proof.NodeSpec
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The block indices, decided over the grid -/

/-- The feature windows and the output window are at block row t, block column 0 at point t. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The weight and bias windows are at block index zero at every point: their one block is the array. -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The feature blocks: rows 5000·t … of their arrays

Each is stated first for ANY array X read through the window's block (so that nothing about the array's contents is ever
opened), then at the array the region finds. -/

/-- Window 0's block at point t, read at y, is the array at row 5000·t + y₀, column y₁. -/
theorem read_rows0 (t : Fin cfg0.N) (X : S100000x64.Idx → Elt Ideal .f32) (y : S5000x64.Idx) (i : S100000x64.Idx)
    (h0 : (i 0).val = 5000 * t.val + (y 0).val) (h1 : (i 1).val = (y 1).val) :
    (((cfg0.win 0).blk t).view.read (Elt Ideal) X : S5000x64.Idx → Elt Ideal .f32) y = X i := by
  obtain ⟨e0, e1, -⟩ := idx_rows t
  show X (((cfg0.win 0).blk t).view.emb y) = X i
  have hi : ((cfg0.win 0).blk t).view.emb y = i := by
    funext a; apply Fin.ext
    match a with
    | ⟨0, _⟩ => show win0_0.index t (0 : Fin 2) * 5000 + 1 * (y 0).val = (i 0).val; rw [e0, h0]; omega
    | ⟨1, _⟩ => show win0_0.index t (1 : Fin 2) * 64 + 1 * (y 1).val = (i 1).val; rw [e1, h1]; omega
  rw [hi]

/-- The same for window 1. -/
theorem read_rows1 (t : Fin cfg0.N) (X : S100000x64.Idx → Elt Ideal .f32) (y : S5000x64.Idx) (i : S100000x64.Idx)
    (h0 : (i 0).val = 5000 * t.val + (y 0).val) (h1 : (i 1).val = (y 1).val) :
    (((cfg0.win 1).blk t).view.read (Elt Ideal) X : S5000x64.Idx → Elt Ideal .f32) y = X i := by
  obtain ⟨-, -, e0, e1, -⟩ := idx_rows t
  show X (((cfg0.win 1).blk t).view.emb y) = X i
  have hi : ((cfg0.win 1).blk t).view.emb y = i := by
    funext a; apply Fin.ext
    match a with
    | ⟨0, _⟩ => show win0_1.index t (0 : Fin 2) * 5000 + 1 * (y 0).val = (i 0).val; rw [e0, h0]; omega
    | ⟨1, _⟩ => show win0_1.index t (1 : Fin 2) * 64 + 1 * (y 1).val = (i 1).val; rw [e1, h1]; omega
  rw [hi]

/-- The same for window 2. -/
theorem read_rows2 (t : Fin cfg0.N) (X : S100000x64.Idx → Elt Ideal .f32) (y : S5000x64.Idx) (i : S100000x64.Idx)
    (h0 : (i 0).val = 5000 * t.val + (y 0).val) (h1 : (i 1).val = (y 1).val) :
    (((cfg0.win 2).blk t).view.read (Elt Ideal) X : S5000x64.Idx → Elt Ideal .f32) y = X i := by
  obtain ⟨-, -, -, -, e0, e1, -⟩ := idx_rows t
  show X (((cfg0.win 2).blk t).view.emb y) = X i
  have hi : ((cfg0.win 2).blk t).view.emb y = i := by
    funext a; apply Fin.ext
    match a with
    | ⟨0, _⟩ => show win0_2.index t (0 : Fin 2) * 5000 + 1 * (y 0).val = (i 0).val; rw [e0, h0]; omega
    | ⟨1, _⟩ => show win0_2.index t (1 : Fin 2) * 64 + 1 * (y 1).val = (i 1).val; rw [e1, h1]; omega
  rw [hi]

/-- Row y₀ of the node features' block at point t is row 5000·t + y₀ of the array. -/
theorem xblk_apply (c : Dev nD) (t : Fin cfg0.N) (y : S5000x64.Idx) (i : S100000x64.Idx)
    (h0 : (i 0).val = 5000 * t.val + (y 0).val) (h1 : (i 1).val = (y 1).val) :
    (iblk m c 0 t : Vec Ideal S5000x64 .f32) y = (V m c main_arg0 : S100000x64.Idx → Elt Ideal .f32) i :=
  read_rows0 t (V m c main_arg0 : S100000x64.Idx → Elt Ideal .f32) y i h0 h1

/-- The same for the edge features summed per sender. -/
theorem sblk_apply (c : Dev nD) (t : Fin cfg0.N) (y : S5000x64.Idx) (i : S100000x64.Idx)
    (h0 : (i 0).val = 5000 * t.val + (y 0).val) (h1 : (i 1).val = (y 1).val) :
    (iblk m c 1 t : Vec Ideal S5000x64 .f32) y = (V m c main_v2 : S100000x64.Idx → Elt Ideal .f32) i :=
  read_rows1 t (V m c main_v2 : S100000x64.Idx → Elt Ideal .f32) y i h0 h1

/-- The same for the edge features summed per receiver. -/
theorem rblk_apply (c : Dev nD) (t : Fin cfg0.N) (y : S5000x64.Idx) (i : S100000x64.Idx)
    (h0 : (i 0).val = 5000 * t.val + (y 0).val) (h1 : (i 1).val = (y 1).val) :
    (iblk m c 2 t : Vec Ideal S5000x64 .f32) y = (V m c main_v5 : S100000x64.Idx → Elt Ideal .f32) i :=
  read_rows2 t (V m c main_v5 : S100000x64.Idx → Elt Ideal .f32) y i h0 h1

/-! ## The weight and bias blocks: the whole arrays -/

/-- The first weight block's one block is the array. -/
theorem ablk_eq (c : Dev nD) (t : Fin cfg0.N) :
    (iblk m c 3 t : Vec Ideal S64x36 .f32) = (V m c main_v6 : S64x36.Idx → Elt Ideal .f32) := by
  obtain ⟨e0, e1, -⟩ := idx_whole t
  funext y
  show (V m c main_v6 : S64x36.Idx → Elt Ideal .f32) (((cfg0.win 3).blk t).view.emb y)
    = (V m c main_v6 : S64x36.Idx → Elt Ideal .f32) y
  have hi : ((cfg0.win 3).blk t).view.emb y = y := by
    funext a; apply Fin.ext
    match a with
    | ⟨0, _⟩ => show win0_3.index t (0 : Fin 2) * 64 + 1 * (y 0).val = (y 0).val; rw [e0]; omega
    | ⟨1, _⟩ => show win0_3.index t (1 : Fin 2) * 36 + 1 * (y 1).val = (y 1).val; rw [e1]; omega
  rw [hi]

/-- The second weight block's one block is the array. -/
theorem bblk_eq (c : Dev nD) (t : Fin cfg0.N) :
    (iblk m c 4 t : Vec Ideal S64x36 .f32) = (V m c main_v7 : S64x36.Idx → Elt Ideal .f32) := by
  obtain ⟨-, -, e0, e1, -⟩ := idx_whole t
  funext y
  show (V m c main_v7 : S64x36.Idx → Elt Ideal .f32) (((cfg0.win 4).blk t).view.emb y)
    = (V m c main_v7 : S64x36.Idx → Elt Ideal .f32) y
  have hi : ((cfg0.win 4).blk t).view.emb y = y := by
    funext a; apply Fin.ext
    match a with
    | ⟨0, _⟩ => show win0_4.index t (0 : Fin 2) * 64 + 1 * (y 0).val = (y 0).val; rw [e0]; omega
    | ⟨1, _⟩ => show win0_4.index t (1 : Fin 2) * 36 + 1 * (y 1).val = (y 1).val; rw [e1]; omega
  rw [hi]

/-- The third weight block's one block is the array. -/
theorem cblk_eq (c : Dev nD) (t : Fin cfg0.N) :
    (iblk m c 5 t : Vec Ideal S64x36 .f32) = (V m c main_v8 : S64x36.Idx → Elt Ideal .f32) := by
  obtain ⟨-, -, -, -, e0, e1, -⟩ := idx_whole t
  funext y
  show (V m c main_v8 : S64x36.Idx → Elt Ideal .f32) (((cfg0.win 5).blk t).view.emb y)
    = (V m c main_v8 : S64x36.Idx → Elt Ideal .f32) y
  have hi : ((cfg0.win 5).blk t).view.emb y = y := by
    funext a; apply Fin.ext
    match a with
    | ⟨0, _⟩ => show win0_5.index t (0 : Fin 2) * 64 + 1 * (y 0).val = (y 0).val; rw [e0]; omega
    | ⟨1, _⟩ => show win0_5.index t (1 : Fin 2) * 36 + 1 * (y 1).val = (y 1).val; rw [e1]; omega
  rw [hi]

/-- The first bias's one block is the array. -/
theorem b1blk_eq (c : Dev nD) (t : Fin cfg0.N) :
    (iblk m c 6 t : Vec Ideal S36 .f32) = (V m c main_arg5 : S36.Idx → Elt Ideal .f32) := by
  obtain ⟨-, -, -, -, -, -, e0, -⟩ := idx_whole t
  funext y
  show (V m c main_arg5 : S36.Idx → Elt Ideal .f32) (((cfg0.win 6).blk t).view.emb y)
    = (V m c main_arg5 : S36.Idx → Elt Ideal .f32) y
  have hi : ((cfg0.win 6).blk t).view.emb y = y := by
    funext a; apply Fin.ext
    match a with
    | ⟨0, _⟩ => show win0_6.index t (0 : Fin 1) * 36 + 1 * (y 0).val = (y 0).val; rw [e0]; omega
  rw [hi]

/-- The second weight matrix's one block is the array. -/
theorem w2blk_eq (c : Dev nD) (t : Fin cfg0.N) :
    (iblk m c 7 t : Vec Ideal S36x2 .f32) = (V m c main_arg6 : S36x2.Idx → Elt Ideal .f32) := by
  obtain ⟨-, -, -, -, -, -, -, e0, e1, -⟩ := idx_whole t
  funext y
  show (V m c main_arg6 : S36x2.Idx → Elt Ideal .f32) (((cfg0.win 7).blk t).view.emb y)
    = (V m c main_arg6 : S36x2.Idx → Elt Ideal .f32) y
  have hi : ((cfg0.win 7).blk t).view.emb y = y := by
    funext a; apply Fin.ext
    match a with
    | ⟨0, _⟩ => show win0_7.index t (0 : Fin 2) * 36 + 1 * (y 0).val = (y 0).val; rw [e0]; omega
    | ⟨1, _⟩ => show win0_7.index t (1 : Fin 2) * 2 + 1 * (y 1).val = (y 1).val; rw [e1]; omega
  rw [hi]

/-- The second bias's one block is the array. -/
theorem b2blk_eq (c : Dev nD) (t : Fin cfg0.N) :
    (iblk m c 8 t : Vec Ideal S2 .f32) = (V m c main_arg7 : S2.Idx → Elt Ideal .f32) := by
  obtain ⟨-, -, -, -, -, -, -, -, -, e0⟩ := idx_whole t
  funext y
  show (V m c main_arg7 : S2.Idx → Elt Ideal .f32) (((cfg0.win 8).blk t).view.emb y)
    = (V m c main_arg7 : S2.Idx → Elt Ideal .f32) y
  have hi : ((cfg0.win 8).blk t).view.emb y = y := by
    funext a; apply Fin.ext
    match a with
    | ⟨0, _⟩ => show win0_8.index t (0 : Fin 1) * 2 + 1 * (y 0).val = (y 0).val; rw [e0]; omega
  rw [hi]

end Cert.KernelIdeal.Hand

end
-- ==== Proof.KernelValue.lean ====
/-
  The kernel's result array, as ONE function of the arrays the region finds.

  A node's update reads only that node's row of the feature arrays (`node_congr_row`), so what grid point t writes back —
  the body's stored value of the three 5000-row feature blocks — is block t of the specification's `node` of the WHOLE
  feature arrays. The 20 blocks of 5000 rows tile the 100000-row output (row i₀ lies in block i₀ / 5000), so the array ends
  holding that function everywhere.
-/
import proofs.«131968_j45071386804514_1_alg».proof.Proof.Gen.KernelIdeal.Value
import proofs.«131968_j45071386804514_1_alg».proof.Proof.KernelPayload
import proofs.«131968_j45071386804514_1_alg».proof.Proof.KernelBlocks
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

/-! ## The output block is a block of the specification -/

/-- If the loaded feature blocks are rows 5000·t … of arrays X, S, R, then the body's stored value at y is the node update
    of X, S, R at the array index i that y names (row 5000·t + y₀, column y₁). -/
theorem block_value (X S R : FVec Ideal S100000x64 .f32) (A B C : FVec Ideal S64x36 .f32) (b1 : FVec Ideal S36 .f32)
    (W2 : FVec Ideal S36x2 .f32) (b2 : FVec Ideal S2 .f32) (x0 x2 x5 : FVec Ideal S5000x64 .f32) (t : Nat)
    (y : S5000x2.Idx) (i : S100000x2.Idx) (hi0 : (i 0).val = 5000 * t + (y 0).val) (hi1 : (i 1).val = (y 1).val)
    (hx : ∀ (p : Fin 5000) (k : Fin 64) (P : Fin 100000), P.val = 5000 * t + p.val → x0 (ix2 p k) = X (ix2 P k))
    (hs : ∀ (p : Fin 5000) (k : Fin 64) (P : Fin 100000), P.val = 5000 * t + p.val → x2 (ix2 p k) = S (ix2 P k))
    (hr : ∀ (p : Fin 5000) (k : Fin 64) (P : Fin 100000), P.val = 5000 * t + p.val → x5 (ix2 p k) = R (ix2 P k)) :
    k0_pay1 (F := Ideal) x0 x2 x5 A B C b1 W2 b2 y = node X S R A B C b1 W2 b2 i := by
  obtain ⟨p, q, rfl⟩ : ∃ (p : Fin 5000) (q : Fin 2), y = ix2 p q := ⟨y 0, y 1, eq_ix2 y⟩
  obtain ⟨P, Q, rfl⟩ : ∃ (P : Fin 100000) (Q : Fin 2), i = ix2 P Q := ⟨i 0, i 1, eq_ix2 i⟩
  have hP : P.val = 5000 * t + p.val := hi0
  obtain rfl : Q = q := Fin.ext hi1
  rw [pay_apply]
  exact node_congr_row x0 x2 x5 X S R A B C b1 W2 b2 p P Q (fun k => hx p k P hP) (fun k => hs p k P hP)
    (fun k => hr p k P hP)

/-- The result array: the node update of the arrays as the region finds them. -/
abbrev G (c : Dev nD) : FVec Ideal S100000x2 .f32 :=
  node (N := 100000) (V m c main_arg0 : S100000x64.Idx → Elt Ideal .f32) (V m c main_v2 : S100000x64.Idx → Elt Ideal .f32)
    (V m c main_v5 : S100000x64.Idx → Elt Ideal .f32) (V m c main_v6 : S64x36.Idx → Elt Ideal .f32)
    (V m c main_v7 : S64x36.Idx → Elt Ideal .f32) (V m c main_v8 : S64x36.Idx → Elt Ideal .f32)
    (V m c main_arg5 : S36.Idx → Elt Ideal .f32) (V m c main_arg6 : S36x2.Idx → Elt Ideal .f32)
    (V m c main_arg7 : S2.Idx → Elt Ideal .f32)

/-- WHAT POINT t WRITES BACK is block t of `G`. -/
theorem flushed_eq (c : Dev nD) (t : Fin cfg0.N) :
    (dats m 0 c).flushed 9 t = ((cfg0.win 9).blk t).view.read (Elt Ideal) (G m c) := by
  rw [Cert.KernelIdeal.Value.flushed9]
  unfold out0_9
  rw [View.canon_unit_zero hz2]
  simp only [View.ld_unit_zero (S := S5000x64) hz2, View.ld_unit_zero (S := S64x36) hz2, View.ld_unit_zero (S := S36) hz1,
    View.ld_unit_zero (S := S36x2) hz2, View.ld_unit_zero (S := S2) hz1]
  rw [ablk_eq m c t, bblk_eq m c t, cblk_eq m c t, b1blk_eq m c t, w2blk_eq m c t, b2blk_eq m c t]
  obtain ⟨-, -, -, -, -, -, e0, e1⟩ := idx_rows t
  funext y
  rw [View.read_apply]
  refine block_value (V m c main_arg0 : S100000x64.Idx → Elt Ideal .f32) (V m c main_v2 : S100000x64.Idx → Elt Ideal .f32)
    (V m c main_v5 : S100000x64.Idx → Elt Ideal .f32) (V m c main_v6 : S64x36.Idx → Elt Ideal .f32)
    (V m c main_v7 : S64x36.Idx → Elt Ideal .f32) (V m c main_v8 : S64x36.Idx → Elt Ideal .f32)
    (V m c main_arg5 : S36.Idx → Elt Ideal .f32) (V m c main_arg6 : S36x2.Idx → Elt Ideal .f32)
    (V m c main_arg7 : S2.Idx → Elt Ideal .f32) (iblk m c 0 t : Vec Ideal S5000x64 .f32) (iblk m c 1 t : Vec Ideal S5000x64 .f32)
    (iblk m c 2 t : Vec Ideal S5000x64 .f32) t.val y (((cfg0.win 9).blk t).view.emb y) ?_ ?_
    (fun p k P hP => xblk_apply m c t (ix2 p k) (ix2 P k) hP rfl)
    (fun p k P hP => sblk_apply m c t (ix2 p k) (ix2 P k) hP rfl)
    (fun p k P hP => rblk_apply m c t (ix2 p k) (ix2 P k) hP rfl)
  · show win0_9.index t (0 : Fin 2) * 5000 + 1 * (y 0).val = 5000 * t.val + (y 0).val
    rw [e0]; omega
  · show win0_9.index t (1 : Fin 2) * 2 + 1 * (y 1).val = (y 1).val
    rw [e1]; omega

/-! ## The blocks tile the output -/

/-- An index of the output is in point t's block iff each coordinate is in the block's range on its axis. -/
theorem mem_blk (t : Fin cfg0.N) (i : S100000x2.Idx) :
    i ∈ ((cfg0.win 9).blk t).view.set ↔ ∀ a : Fin 2, win0_9.index t a * S5000x2.size a ≤ (i a).val
      ∧ (i a).val < win0_9.index t a * S5000x2.size a + S5000x2.size a := by
  show i ∈ ((View.whole main_v9).slice (win0_9.rect t)).set ↔ _
  rw [View.set_slice_whole, Rect.mem_set_unit]
  exact Iff.rfl

/-- Row i₀ of the output is in the block of point i₀ / 5000, which writes back. -/
theorem cover (i : S100000x2.Idx) :
    ∃ t : Fin cfg0.N, (cfg0.win 9).flush t = true ∧ i ∈ ((cfg0.win 9).blk t).view.set := by
  have hi0 : (i 0).val < 100000 := (i 0).isLt
  have hi1 : (i 1).val < 2 := (i 1).isLt
  have hN : cfg0.N = 20 := N_0
  have ht : (i 0).val / 5000 < cfg0.N := by rw [hN]; omega
  obtain ⟨-, -, -, -, -, -, e0, e1⟩ := idx_rows ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 2 ≤ (i 1).val
      ∧ (i 1).val < win0_9.index ⟨(i 0).val / 5000, ht⟩ (1 : Fin 2) * 2 + 2
    rw [e1]; omega

/-- So the output array ends holding `G`. -/
theorem final (c : Dev nD) : (dats m 0 c).arrAt 9 cfg0.N = G m c :=
  (dats m 0 c).arrAt_eq_of_cover 9 (G m c) (fun t _ => flushed_eq m c t) cover

/-! ## The run, read -/

/-- Every weakly fair execution terminates with the result array at `G` and the arguments unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Hand

end
-- ==== Proof.KernelHost.lean ====
/-
  What the region finds in the arrays the host operations before it wrote: the two per-node sums of the edge features
  (the host's scatter-adds into a zero array, kept as they are printed), and rows 0–63, 64–127, 128–191 of the stacked
  first weight matrix (three slices).
-/
import proofs.«131968_j45071386804514_1_alg».proof.Proof.Gen.KernelIdeal.Frame
import Idealize.ShloMosaic.Lib.StableHlo.Run
import Idealize.ShloMosaic.PureOps.Ideal

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The edge features summed per sender, as the host's scatter-add left them. -/
theorem V_sent (c : Dev nD) : (V m c main_v2 : S100000x64.Idx → Elt Ideal .f32)
    = Host.scatterAdd scatter_S100000x64_S3200000x1_S3200000x64_1_0_0_1
        (broadcastInDim S100000x64 ![] bcast_S_S100000x64 (constant (F := Ideal) S_ .f32 0x00000000#32))
        (broadcastInDim S3200000x1 ![0] bcast_S3200000_S3200000x1_0 (m ((c.tc : Thread nD τ).loc main_arg2)))
        (m ((c.tc : Thread nD τ).loc main_arg1)) := by
  dsimp only [V, hostOps0]; after_results <;> rfl

/-- The edge features summed per receiver. -/
theorem V_recv (c : Dev nD) : (V m c main_v5 : S100000x64.Idx → Elt Ideal .f32)
    = Host.scatterAdd scatter_S100000x64_S3200000x1_S3200000x64_1_0_0_1
        (broadcastInDim S100000x64 ![] bcast_S_S100000x64 (constant (F := Ideal) S_ .f32 0x00000000#32))
        (broadcastInDim S3200000x1 ![0] bcast_S3200000_S3200000x1_0 (m ((c.tc : Thread nD τ).loc main_arg3)))
        (m ((c.tc : Thread nD τ).loc main_arg1)) := by
  dsimp only [V, hostOps0]; after_results <;> rfl

/-- Rows 0–63 of the stacked first weight matrix. -/
theorem V_w1a (c : Dev nD) : (V m c main_v6 : S64x36.Idx → Elt Ideal .f32)
    = extractStridedSlice S64x36 ![0, 0] (m ((c.tc : Thread nD τ).loc main_arg4)) slices_S192x36_S64x36_0_0 := by
  dsimp only [V, hostOps0]; after_results <;> rfl

/-- Rows 64–127. -/
theorem V_w1b (c : Dev nD) : (V m c main_v7 : S64x36.Idx → Elt Ideal .f32)
    = extractStridedSlice S64x36 ![64, 0] (m ((c.tc : Thread nD τ).loc main_arg4)) slices_S192x36_S64x36_64_0 := by
  dsimp only [V, hostOps0]; after_results <;> rfl

/-- Rows 128–191. -/
theorem V_w1c (c : Dev nD) : (V m c main_v8 : S64x36.Idx → Elt Ideal .f32)
    = extractStridedSlice S64x36 ![128, 0] (m ((c.tc : Thread nD τ).loc main_arg4)) slices_S192x36_S64x36_128_0 := by
  dsimp only [V, hostOps0]; after_results <;> rfl

end Cert.KernelIdeal.Hand

end
-- ==== Proof.RefValue.lean ====
/-
  The reference's result, read at an index, is the specification.

  The reference joins the node features and the two per-node sums of edge features along the feature axis into a
  100000 × 192 array, multiplies it by the stacked 192 × 36 first weight matrix, adds the first bias, applies the rectifier,
  multiplies by the second weight matrix and adds the second bias. At the extended reals each host matrix product is the
  plain sum of products over the contracted coordinate, and each bias is read at its column. Columns 0–63, 64–127 and
  128–191 of the joined array are the three feature arrays, so the 192-term inner sum is the three 64-term sums of the
  specification (`hidden_joined`). The two scatter-adds stay unopened: they are the same two arrays on both sides.
-/
import proofs.«131968_j45071386804514_1_alg».proof.Proof.Gen.ReferenceIdeal.Read
import proofs.«131968_j45071386804514_1_alg».proof.Proof.NodeSpec
import Idealize.ShloMosaic.Lib.Pipeline.Value

noncomputable section

open scoped BigOperators

namespace Cert.ReferenceIdeal.Hand

open Cert.ReferenceIdeal Cert.ReferenceIdeal.Gen Cert.ReferenceIdeal.Read Idealize.ShloMosaic
open Idealize.ShloMosaic.ValueIdx Cert.NodeMlp

/-! ## The joined feature array, column range by column range -/

/-- Columns 0–63 of the joined array are the first piece. -/
theorem cat_lo (x s r : (⟨S100000x64, .f32⟩ : BufTy).Contents (Elt Ideal)) (p : Fin 100000) (k : Fin 64) :
    concatenate S100000x192 1 [⟨S100000x64, x⟩, ⟨S100000x64, s⟩, ⟨S100000x64, r⟩]
      concatenates_S100000x64_S100000x64_S100000x64_S100000x192_d1 (ix2 p (lo k)) = x (ix2 p k) :=
  concatenate_apply_piece _ _ _ (ix2 p (lo k)) 0 (by show (0 : Nat) < 3; decide) S100000x64 x rfl rfl 0 rfl (ix2 p k)
    (fun b hb => match b with
      | ⟨0, _⟩ => rfl
      | ⟨1, _⟩ => absurd rfl hb)
    (by show 0 + k.val = k.val; omega)

/-- Columns 64–127 are the second piece. -/
theorem cat_mid (x s r : (⟨S100000x64, .f32⟩ : BufTy).Contents (Elt Ideal)) (p : Fin 100000) (k : Fin 64) :
    concatenate S100000x192 1 [⟨S100000x64, x⟩, ⟨S100000x64, s⟩, ⟨S100000x64, r⟩]
      concatenates_S100000x64_S100000x64_S100000x64_S100000x192_d1 (ix2 p (mid k)) = s (ix2 p k) :=
  concatenate_apply_piece _ _ _ (ix2 p (mid k)) 1 (by show (1 : Nat) < 3; decide) S100000x64 s rfl rfl 64 rfl (ix2 p k)
    (fun b hb => match b with
      | ⟨0, _⟩ => rfl
      | ⟨1, _⟩ => absurd rfl hb)
    rfl

/-- Columns 128–191 are the third piece. -/
theorem cat_hi (x s r : (⟨S100000x64, .f32⟩ : BufTy).Contents (Elt Ideal)) (p : Fin 100000) (k : Fin 64) :
    concatenate S100000x192 1 [⟨S100000x64, x⟩, ⟨S100000x64, s⟩, ⟨S100000x64, r⟩]
      concatenates_S100000x64_S100000x64_S100000x64_S100000x192_d1 (ix2 p (hi k)) = r (ix2 p k) :=
  concatenate_apply_piece _ _ _ (ix2 p (hi k)) 2 (by show (2 : Nat) < 3; decide) S100000x64 r rfl rfl 128 rfl (ix2 p k)
    (fun b hb => match b with
      | ⟨0, _⟩ => rfl
      | ⟨1, _⟩ => absurd rfl hb)
    rfl

section Stages

variable (x0 : (⟨S100000x64, .f32⟩ : BufTy).Contents (Elt Ideal)) (x1 : (⟨S3200000x64, .f32⟩ : BufTy).Contents (Elt Ideal))
  (x2 x3 : (⟨S3200000, .i32⟩ : BufTy).Contents (Elt Ideal)) (x4 : (⟨S192x36, .f32⟩ : BufTy).Contents (Elt Ideal))
  (x5 : (⟨S36, .f32⟩ : BufTy).Contents (Elt Ideal)) (x6 : (⟨S36x2, .f32⟩ : BufTy).Contents (Elt Ideal))
  (x7 : (⟨S2, .f32⟩ : BufTy).Contents (Elt Ideal))
  (A B C : FVec Ideal ⟨2, ![64, 36]⟩ .f32)

/-- The rectified hidden layer of the reference at (p, h) is the specification's hidden unit, for A, B, C the three
    64-row blocks of the stacked first weight matrix. -/
theorem ref_hidden (p : Fin 100000) (h : Fin 36)
    (hA : ∀ k : Fin 64, A (ix2 k h) = x4 (ix2 (lo k) h)) (hB : ∀ k : Fin 64, B (ix2 k h) = x4 (ix2 (mid k) h))
    (hC : ∀ k : Fin 64, C (ix2 k h) = x4 (ix2 (hi k) h)) :
    val_main_v11 (F := Ideal) x0 x1 x2 x3 x4 x5 (ix2 p h)
      = Cert.NodeMlp.hidden x0 (val_main_v2 (F := Ideal) x1 x2) (val_main_v5 (F := Ideal) x1 x3) A B C x5 p h := by
  rw [hidden_joined x0 (val_main_v2 (F := Ideal) x1 x2) (val_main_v5 (F := Ideal) x1 x3) A B C x5 x4
    (val_main_v6 (F := Ideal) x0 x1 x2 x3) p h hA hB hC
    (fun k => cat_lo x0 _ _ p k) (fun k => cat_mid x0 _ _ p k) (fun k => cat_hi x0 _ _ p k)]
  rw [val_main_v11_apply, val_main_v10_apply, val_main_v7_apply, val_main_v9_apply, val_main_v8_apply,
    val_main_call0_v0_apply, val_main_call0_cst_apply]
  have el : ∀ k : Fin 192, lidx_main_v7 (ix2 p h) k = ix2 p k := fun k => funext fun a => Fin.ext (by
    match a with
    | ⟨0, _⟩ => rfl
    | ⟨1, _⟩ => rfl)
  have er : ∀ k : Fin 192, ridx_main_v7 (ix2 p h) k = ix2 k h := fun k => funext fun a => Fin.ext (by
    match a with
    | ⟨0, _⟩ => rfl
    | ⟨1, _⟩ => rfl)
  have eb : idx_main_v8 (idx_main_v9 (ix2 p h)) = ix1 h := funext fun a => Fin.ext (by
    match a with
    | ⟨0, _⟩ => rfl)
  simp only [el, er, eb]
  rfl

/-- The reference's result at (p, q) is the specification's node update. -/
theorem ref_apply (p : Fin 100000) (q : Fin 2)
    (hA : ∀ (k : Fin 64) (h : Fin 36), A (ix2 k h) = x4 (ix2 (lo k) h))
    (hB : ∀ (k : Fin 64) (h : Fin 36), B (ix2 k h) = x4 (ix2 (mid k) h))
    (hC : ∀ (k : Fin 64) (h : Fin 36), C (ix2 k h) = x4 (ix2 (hi k) h)) :
    val_main_v15 (F := Ideal) x0 x1 x2 x3 x4 x5 x6 x7 (ix2 p q)
      = node x0 (val_main_v2 (F := Ideal) x1 x2) (val_main_v5 (F := Ideal) x1 x3) A B C x5 x6 x7 (ix2 p q) := by
  rw [node_apply, val_main_v15_apply, val_main_v12_apply, val_main_v14_apply, val_main_v13_apply]
  have el : ∀ k : Fin 36, lidx_main_v12 (ix2 p q) k = ix2 p k := fun k => funext fun a => Fin.ext (by
    match a with
    | ⟨0, _⟩ => rfl
    | ⟨1, _⟩ => rfl)
  have er : ∀ k : Fin 36, ridx_main_v12 (ix2 p q) k = ix2 k q := fun k => funext fun a => Fin.ext (by
    match a with
    | ⟨0, _⟩ => rfl
    | ⟨1, _⟩ => rfl)
  have eb : idx_main_v13 (idx_main_v14 (ix2 p q)) = ix1 q := funext fun a => Fin.ext (by
    match a with
    | ⟨0, _⟩ => rfl)
  simp only [el, er, eb]
  refine congrArg₂ (· + ·) (Finset.sum_congr rfl fun h _ => congrArg₂ (· * ·) ?_ rfl) rfl
  exact ref_hidden x0 x1 x2 x3 x4 x5 A B C p h (fun k => hA k h) (fun k => hB k h) (fun k => hC k h)

/-- THE REFERENCE'S RESULT ARRAY is the specification's node update of the node features, the two per-node sums of edge
    features, the three blocks of the first weight matrix, and the rest of the parameters. -/
theorem ref_eq
    (hA : ∀ (k : Fin 64) (h : Fin 36), A (ix2 k h) = x4 (ix2 (lo k) h))
    (hB : ∀ (k : Fin 64) (h : Fin 36), B (ix2 k h) = x4 (ix2 (mid k) h))
    (hC : ∀ (k : Fin 64) (h : Fin 36), C (ix2 k h) = x4 (ix2 (hi k) h)) :
    val_main_v15 (F := Ideal) x0 x1 x2 x3 x4 x5 x6 x7
      = node x0 (val_main_v2 (F := Ideal) x1 x2) (val_main_v5 (F := Ideal) x1 x3) A B C x5 x6 x7 := by
  funext j
  obtain ⟨p, q, rfl⟩ : ∃ (p : Fin 100000) (q : Fin 2), j = ix2 p q := ⟨j 0, j 1, eq_ix2 j⟩
  exact ref_apply x0 x1 x2 x3 x4 x5 x6 x7 A B C p q hA hB hC

end Stages

end Cert.ReferenceIdeal.Hand

end
-- ==== Proof.Bridge.lean ====
/-
  The two programs compute ONE function of the arguments.

  The kernel's result array is the specification's node update of the arrays its region finds; the reference's result is
  the specification's node update of the arguments, of the two per-node sums of edge features as it prints them, and of
  any three arrays that are rows 0–63, 64–127, 128–191 of the stacked first weight matrix. What the region finds are
  exactly those: the node features and the bias and second-layer arguments untouched, the two scatter-adds the same
  operation on the same operands in both programs (compared as printed, never opened), and the three slices of the
  first weight matrix read at an index.
-/
import proofs.«131968_j45071386804514_1_alg».proof.Proof.KernelValue
import proofs.«131968_j45071386804514_1_alg».proof.Proof.KernelHost
import proofs.«131968_j45071386804514_1_alg».proof.Proof.RefValue

noncomputable section

namespace Cert.Bridge

open Idealize.ShloMosaic Idealize.ShloMosaic.TcCoe Idealize.SL.Sem Idealize.ShloMosaic.ValueIdx Cert.NodeMlp

/-- Equal arguments give equal node updates. -/
theorem node_args {N : Nat} {x x' s s' r r' : FVec Ideal ⟨2, ![N, 64]⟩ .f32} (A B C : FVec Ideal ⟨2, ![64, 36]⟩ .f32)
    {b1 b1' : FVec Ideal ⟨1, ![36]⟩ .f32} {W2 W2' : FVec Ideal ⟨2, ![36, 2]⟩ .f32} {b2 b2' : FVec Ideal ⟨1, ![2]⟩ .f32}
    (hx : x = x') (hs : s = s') (hr : r = r') (h1 : b1 = b1') (hw : W2 = W2') (h2 : b2 = b2') :
    node x s r A B C b1 W2 b2 = node x' s' r' A B C b1' W2' b2' := by
  subst hx hs hr h1 hw h2; rfl

/-! ## The three slices of the stacked weight matrix, read at an index -/

theorem slice_lo (W1 : FVec Ideal Cert.KernelIdeal.S192x36 .f32) (k : Fin 64) (h : Fin 36) :
    extractStridedSlice Cert.KernelIdeal.S64x36 ![0, 0] W1 Cert.KernelIdeal.Gen.slices_S192x36_S64x36_0_0 (ix2 k h)
      = W1 (ix2 (lo k) h) :=
  extractStridedSlice_apply _ W1 _ (ix2 k h) (ix2 (lo k) h) fun a => match a with
    | ⟨0, _⟩ => by show k.val = 0 + k.val; omega
    | ⟨1, _⟩ => by show h.val = 0 + h.val; omega

theorem slice_mid (W1 : FVec Ideal Cert.KernelIdeal.S192x36 .f32) (k : Fin 64) (h : Fin 36) :
    extractStridedSlice Cert.KernelIdeal.S64x36 ![64, 0] W1 Cert.KernelIdeal.Gen.slices_S192x36_S64x36_64_0 (ix2 k h)
      = W1 (ix2 (mid k) h) :=
  extractStridedSlice_apply _ W1 _ (ix2 k h) (ix2 (mid k) h) fun a => match a with
    | ⟨0, _⟩ => rfl
    | ⟨1, _⟩ => by show h.val = 0 + h.val; omega

theorem slice_hi (W1 : FVec Ideal Cert.KernelIdeal.S192x36 .f32) (k : Fin 64) (h : Fin 36) :
    extractStridedSlice Cert.KernelIdeal.S64x36 ![128, 0] W1 Cert.KernelIdeal.Gen.slices_S192x36_S64x36_128_0 (ix2 k h)
      = W1 (ix2 (hi k) h) :=
  extractStridedSlice_apply _ W1 _ (ix2 k h) (ix2 (hi k) h) fun a => match a with
    | ⟨0, _⟩ => rfl
    | ⟨1, _⟩ => by show h.val = 0 + h.val; omega

/-! ## The per-node sums of edge features: one operation on the same operands in both programs -/

set_option maxHeartbeats 100000 in
/-- The reference's scatter-add into the zero array, as it prints it, is the kernel program's: the same dimension numbers,
    the same zero array, the same index column. -/
theorem sent_eq (x1 : (⟨Cert.ReferenceIdeal.S3200000x64, .f32⟩ : BufTy).Contents (Elt Ideal))
    (x2 : (⟨Cert.ReferenceIdeal.S3200000, .i32⟩ : BufTy).Contents (Elt Ideal)) :
    Cert.ReferenceIdeal.Read.val_main_v2 (F := Ideal) x1 x2
      = Host.scatterAdd Cert.KernelIdeal.scatter_S100000x64_S3200000x1_S3200000x64_1_0_0_1
          (broadcastInDim Cert.KernelIdeal.S100000x64 ![] Cert.KernelIdeal.Gen.bcast_S_S100000x64
            (constant (F := Ideal) Cert.KernelIdeal.S_ .f32 0x00000000#32))
          (broadcastInDim Cert.KernelIdeal.S3200000x1 ![0] Cert.KernelIdeal.Gen.bcast_S3200000_S3200000x1_0 x2) x1 := rfl

set_option maxHeartbeats 100000 in
theorem recv_eq (x1 : (⟨Cert.ReferenceIdeal.S3200000x64, .f32⟩ : BufTy).Contents (Elt Ideal))
    (x3 : (⟨Cert.ReferenceIdeal.S3200000, .i32⟩ : BufTy).Contents (Elt Ideal)) :
    Cert.ReferenceIdeal.Read.val_main_v5 (F := Ideal) x1 x3
      = Host.scatterAdd Cert.KernelIdeal.scatter_S100000x64_S3200000x1_S3200000x64_1_0_0_1
          (broadcastInDim Cert.KernelIdeal.S100000x64 ![] Cert.KernelIdeal.Gen.bcast_S_S100000x64
            (constant (F := Ideal) Cert.KernelIdeal.S_ .f32 0x00000000#32))
          (broadcastInDim Cert.KernelIdeal.S3200000x1 ![0] Cert.KernelIdeal.Gen.bcast_S3200000_S3200000x1_0 x3) x1 := rfl

/-! ## The reference's result of the kernel program's arguments is the kernel's result array -/

section
open Cert.KernelIdeal Cert.KernelIdeal.Gen Cert.KernelIdeal.Hand

variable (m : (ℓ : Loc nD τ sig) → Buf (Elt Ideal) ℓ)

theorem result_eq (c : Dev nD) :
    Cert.ReferenceIdeal.Read.val_main_v15 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7))
      = G m c := by
  refine (Cert.ReferenceIdeal.Hand.ref_eq _ _ _ _ _ _ _ _
    (V m c main_v6 : S64x36.Idx → Elt Ideal .f32) (V m c main_v7 : S64x36.Idx → Elt Ideal .f32)
    (V m c main_v8 : S64x36.Idx → Elt Ideal .f32)
    (fun k h => (congrFun (V_w1a m c) (ix2 k h)).trans (slice_lo _ k h))
    (fun k h => (congrFun (V_w1b m c) (ix2 k h)).trans (slice_mid _ k h))
    (fun k h => (congrFun (V_w1c m c) (ix2 k h)).trans (slice_hi _ k h))).trans ?_
  exact node_args _ _ _ (V_main_arg0 m c).symm ((sent_eq _ _).trans (V_sent m c).symm)
    ((recv_eq _ _).trans (V_recv m c).symm) (V_main_arg5 m c).symm (V_main_arg6 m c).symm (V_main_arg7 m c).symm

end

end Cert.Bridge

end
-- ==== Proof.lean ====
/-
  A node update of a graph network: the tiled accelerator kernel against its plain reference, over the extended reals.

  Both programs first sum the edge features per sending and per receiving node (the same host scatter-adds on the same
  operands). The reference joins node features and the two sums along the feature axis and runs a two-layer perceptron
  with a rectifier on the 192 joined features; the kernel keeps the three 64-feature groups apart, multiplies each by its
  own 64-row block of the first weight matrix, and adds the three products. A sum over 192 = 64 + 64 + 64 indices splits
  by index range, so both compute, for node p and output feature q,

    Σ_{h < 36} max( Σ_{k < 64} x(p,k)·W₁(k,h) + Σ_{k < 64} s(p,k)·W₁(64+k,h) + Σ_{k < 64} r(p,k)·W₁(128+k,h) + b₁(h), 0 ) · W₂(h,q) + b₂(q).

  Only commutativity and associativity of addition are used, so the precondition (finite inputs) is never opened. The
  kernel's narrowing of its matrix operands to a shorter float format is the identity at the extended reals, and the
  idealization rewrote no operation, so the sanctioned-idealization claim is trivial.
-/
import proofs.«131968_j45071386804514_1_alg».proof.Defs
import proofs.«131968_j45071386804514_1_alg».proof.Proof.Gen.Kernel
import proofs.«131968_j45071386804514_1_alg».proof.Proof.Gen.Kernel.Skeleton
import proofs.«131968_j45071386804514_1_alg».proof.Proof.Gen.Kernel.Launch
import proofs.«131968_j45071386804514_1_alg».proof.Proof.Gen.Kernel.Points
import proofs.«131968_j45071386804514_1_alg».proof.Proof.Gen.Kernel.Frame
import proofs.«131968_j45071386804514_1_alg».proof.Proof.Gen.KernelIdeal
import proofs.«131968_j45071386804514_1_alg».proof.Proof.Gen.KernelIdeal.Skeleton
import proofs.«131968_j45071386804514_1_alg».proof.Proof.Gen.KernelIdeal.Launch
import proofs.«131968_j45071386804514_1_alg».proof.Proof.Gen.KernelIdeal.Points
import proofs.«131968_j45071386804514_1_alg».proof.Proof.Gen.KernelIdeal.Frame
import proofs.«131968_j45071386804514_1_alg».proof.Proof.Gen.ReferenceIdeal
import proofs.«131968_j45071386804514_1_alg».proof.Proof.Gen.KernelIdeal.Value
import proofs.«131968_j45071386804514_1_alg».proof.Proof.Gen.ReferenceIdeal.Run
import proofs.«131968_j45071386804514_1_alg».proof.Proof.Gen.ReferenceIdeal.Read
import proofs.«131968_j45071386804514_1_alg».proof.Proof.Gen.Pre_finite_inputs
import proofs.«131968_j45071386804514_1_alg».proof.Proof.Bridge
import Idealize.ShloMosaic.Adequacy
import Idealize.ShloMosaic.Init

noncomputable section

namespace Cert.Proof

open Idealize.ShloMosaic Idealize.SL.Sem

/-- The reference terminates with its arguments unchanged: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's is the
    specification's node update of the arrays its region finds, and the reference's result, rewritten to the kernel
    program's arguments, is that same array. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v15_eq, a0, a1, a2, a3, a4, a5, a6, a7]
  exact Cert.Bridge.result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
